-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1 : Shape := ⟨2, ![8192, 1]⟩
abbrev S_ : Shape := ⟨0, ![]⟩

class Facts : Prop where
  bcast_S_S8192x1 : S_.BroadcastsInDim S8192x1 (![] : Fin 0 → Fin S8192x1.rank)
  reducesTo_S8192x1_S_d0_1 : S8192x1.ReducesTo [0, 1] S_
  h_S_ : 0 < S_.numel

variable [Facts]

def fn {F : FTy → Type} [FloatOps F] (main_arg0 : FVec F S8192x1 .f32) (main_arg1 : IVec S8192x1 32) : IVec S_ 1 :=
  let main_v0 : FVec F S8192x1 .f32 := Host.absf main_arg0
  let main_cst : FVec F S_ .f32 := constant S_ .f32 0x7F800000#32
  let main_v1 : FVec F S8192x1 .f32 := broadcastInDim S8192x1 ![] bcast_S_S8192x1 main_cst
  let main_v2 : IVec S8192x1 1 := cmpf .olt main_v0 main_v1
  let main_c : IVec S_ 1 := constantI S_ 1 1#1
  let main_v3 : IVec S_ 1 := (fun x v => Host.reduce IntOp.andi x v reducesTo_S8192x1_S_d0_1 h_S_) main_v2 main_c
  main_v3
-- ==== Kernel.lean ====
abbrev S8192x1 : Shape := ⟨2, ![8192, 1]⟩
abbrev S1x8192 : Shape := ⟨2, ![1, 8192]⟩
abbrev S1x1 : Shape := ⟨2, ![1, 1]⟩
abbrev S1024x1 : Shape := ⟨2, ![1024, 1]⟩
abbrev S1x1024 : Shape := ⟨2, ![1, 1024]⟩
abbrev S1024x1024 : Shape := ⟨2, ![1024, 1024]⟩
abbrev S1024 : Shape := ⟨1, ![1024]⟩
abbrev S1 : Shape := ⟨1, ![1]⟩
abbrev S_ : Shape := ⟨0, ![]⟩

abbrev nBuf : Space → Nat
  | .hbm => 6
  | .vmem => 10
  | .smem => 0
  | _ => 0

abbrev bufTy : (tb : Table) → Fin (tcTables nBuf tb) → BufTy
  | .hbm, ⟨0, _⟩ => ⟨S8192x1, .f32⟩
  | .hbm, ⟨1, _⟩ => ⟨S8192x1, .i32⟩
  | .hbm, ⟨2, _⟩ => ⟨S1x8192, .f32⟩
  | .hbm, ⟨3, _⟩ => ⟨S1x8192, .i32⟩
  | .hbm, ⟨4, _⟩ => ⟨S1x1, .f32⟩
  | .hbm, ⟨5, _⟩ => ⟨S_, .f32⟩
  | .local _ .vmem, ⟨0, _⟩ => ⟨S1024x1, .f32⟩
  | .local _ .vmem, ⟨1, _⟩ => ⟨S1024x1, .f32⟩
  | .local _ .vmem, ⟨2, _⟩ => ⟨S1x1024, .f32⟩
  | .local _ .vmem, ⟨3, _⟩ => ⟨S1x1024, .f32⟩
  | .local _ .vmem, ⟨4, _⟩ => ⟨S1024x1, .i32⟩
  | .local _ .vmem, ⟨5, _⟩ => ⟨S1024x1, .i32⟩
  | .local _ .vmem, ⟨6, _⟩ => ⟨S1x1024, .i32⟩
  | .local _ .vmem, ⟨7, _⟩ => ⟨S1x1024, .i32⟩
  | .local _ .vmem, ⟨8, _⟩ => ⟨S1x1, .f32⟩
  | .local _ .vmem, ⟨9, _⟩ => ⟨S1x1, .f32⟩
  | _, _ => ⟨S8192x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg0 : BitVec 32 := BitVec.ofNat 32 (i 0).val
  let c7_i32 : BitVec 32 := 7#32
  let v42 : BitVec 1 := Scalar.cmpi .eq arg0 c7_i32
  let arg1 : BitVec 32 := BitVec.ofNat 32 (i 1).val
  let c7_i32_18 : BitVec 32 := 7#32
  let v43 : BitVec 1 := Scalar.cmpi .eq arg1 c7_i32_18
  let v44 : BitVec 1 := Scalar.andi v42 v43
  let v45 : BitVec 32 := Scalar.extui v44
  let c0_i32_19 : BitVec 32 := 0#32
  let v46 : BitVec 1 := Scalar.cmpi .ne v45 c0_i32_19
  v46

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

class Facts₀ : Prop where
  shapeCasts_S8192x1_S1x8192 : S8192x1.ShapeCasts S1x8192
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x1_S1024x1_0_0 : ∀ a, (![0, 0] : Fin 2 → Nat) a + S1024x1.size a ≤ S1024x1.size a
  h_S1024x1 : 0 < S1024x1.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  iota_S1024x1024_d0_w32 : S1024x1024.Iotas .tc 32 [0]
  iota_S1024x1024_d1_w32 : S1024x1024.Iotas .tc 32 [1]
  reduces_S1024x1024_S1024 : S1024x1024.Reduces [1] S1024
  shapeCasts_S1024_S1024x1 : S1024.ShapeCasts S1024x1
  reduces_S1024x1_S1 : S1024x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1.size a ≤ S8192x1.size a
  hwx0_0 : ∀ i : grid0.Coords, EltTy.bits .f32 = 32 ∨ (Rect.block (s := S8192x1) S1024x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x8192.size a
  hwx0_1 : ∀ i : grid0.Coords, EltTy.bits .f32 = 32 ∨ (Rect.block (s := S1x8192) S1x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .i32 = 32 ∨ (Rect.block (s := S8192x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .i32 = 32 ∨ (Rect.block (s := S1x8192) S1x1024.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

abbrev win0_0 : Pipeline.Window sig grid0 :=
  Pipeline.Window.ofSpec (Memref.whole main_arg0) S1024x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x1 : Shape := ⟨2, ![8192, 1]⟩
abbrev S8192 : Shape := ⟨1, ![8192]⟩
abbrev S1x8192 : Shape := ⟨2, ![1, 8192]⟩
abbrev S8192x8192 : Shape := ⟨2, ![8192, 8192]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S8192x1, .f32⟩
  | .hbm, ⟨1, _⟩ => ⟨S8192x1, .i32⟩
  | .hbm, ⟨2, _⟩ => ⟨S8192, .f32⟩
  | .hbm, ⟨3, _⟩ => ⟨S8192x1, .f32⟩
  | .hbm, ⟨4, _⟩ => ⟨S1x8192, .f32⟩
  | .hbm, ⟨5, _⟩ => ⟨S8192x8192, .f32⟩
  | .hbm, ⟨6, _⟩ => ⟨S8192x8192, .f32⟩
  | .hbm, ⟨7, _⟩ => ⟨S8192x8192, .f32⟩
  | .hbm, ⟨8, _⟩ => ⟨S8192x8192, .f32⟩
  | .hbm, ⟨9, _⟩ => ⟨S8192, .i32⟩
  | .hbm, ⟨10, _⟩ => ⟨S8192x1, .i32⟩
  | .hbm, ⟨11, _⟩ => ⟨S1x8192, .i32⟩
  | .hbm, ⟨12, _⟩ => ⟨S8192x8192, .i32⟩
  | .hbm, ⟨13, _⟩ => ⟨S8192x8192, .i32⟩
  | .hbm, ⟨14, _⟩ => ⟨S8192x8192, .i1⟩
  | .hbm, ⟨15, _⟩ => ⟨S_, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S8192x8192, .f32⟩
  | .hbm, ⟨21, _⟩ => ⟨S8192x8192, .i32⟩
  | .hbm, ⟨22, _⟩ => ⟨S8192x8192, .i32⟩
  | .hbm, ⟨23, _⟩ => ⟨S_, .i32⟩
  | .hbm, ⟨24, _⟩ => ⟨S8192x8192, .i32⟩
  | .hbm, ⟨25, _⟩ => ⟨S8192x8192, .i32⟩
  | .hbm, ⟨26, _⟩ => ⟨S8192x8192, .i1⟩
  | .hbm, ⟨27, _⟩ => ⟨S8192x8192, .i1⟩
  | .hbm, ⟨28, _⟩ => ⟨S8192x8192, .f32⟩
  | .hbm, ⟨29, _⟩ => ⟨S_, .f32⟩
  | .hbm, ⟨30, _⟩ => ⟨S_, .f32⟩
  | .hbm, ⟨31, _⟩ => ⟨S8192x8192, .f32⟩
  | .hbm, ⟨32, _⟩ => ⟨S8192x8192, .f32⟩
  | .hbm, ⟨33, _⟩ => ⟨S_, .f32⟩
  | .hbm, ⟨34, _⟩ => ⟨S_, .f32⟩
  | _, _ => ⟨S8192x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_cst_0 : Ref sig .tc := ⟨.hbm, 16, rfl⟩
abbrev main_call0_v0 : Ref sig .tc := ⟨.hbm, 17, rfl⟩
abbrev main_call0_v1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_1 : Ref sig .tc := ⟨.hbm, 29, rfl⟩
abbrev main_call1_v0 : Ref sig .tc := ⟨.hbm, 30, rfl⟩
abbrev main_call1_v1 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩

abbrev nD : Nat := 1
abbrev τ : Topo := Topo.v7x

variable {F : FTy → Type} [FloatOps F]

class Facts₀ : Prop where
  shapeCasts_S8192x1_S8192 : S8192x1.ShapeCasts S8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S_d0_1 : S8192x8192.ReducesTo [0, 1] S_
  h_S_ : 0 < S_.numel

variable [Facts₀]

class Facts : Prop extends Facts₀ where

variable [Facts]
-- ==== Proof.PairSum.lean ====
/-
  The pairwise loss as a function of the two argument columns, and the regrouping of its double sum by tiles.

  For a column `p` of 8192 extended reals and a column `l` of 8192 words, the pair `(i, j)` contributes
  `s(i, j) · (p i - p j)²`, where `s(i, j)` is `1` when `l i = l j` and `-1` otherwise, and nothing when `i = j`.
  The loss is the sum of the contributions over all pairs.  Cutting each axis into 8 blocks of 1024 indices, the
  same sum is the sum over the 64 tiles `(a, b)` of the tile's own double sum: addition of extended reals is
  commutative and associative, so a finite sum may be regrouped freely (no finiteness of the entries is used).
-/
import Idealize.ShloMosaic.Lib.ValueIdx
import Idealize.ShloMosaic.PureOps.Ideal.Laws

noncomputable section

namespace Cert.PairSum

open Idealize.ShloMosaic Idealize.ShloMosaic.ValueIdx
open scoped BigOperators

/-- A column of 8192 entries. -/
abbrev Col : Shape := ⟨2, ![8192, 1]⟩

/-- The signed squared difference of the pair `(i, j)`: `s(i, j) · (p i - p j)²`. -/
def signedSq (p : Col.Idx → EReal) (l : Col.Idx → BitVec 32) (i j : Fin 8192) : EReal :=
  Scalar.select (IntOp.cmpi .eq (l (ix2 i (0 : Fin 1))) (l (ix2 j (0 : Fin 1))))
      (Ideal.ofBits .f32 0x3F800000#32) (Ideal.ofBits .f32 0xBF800000#32)
    * ((p (ix2 i (0 : Fin 1)) - p (ix2 j (0 : Fin 1))) * (p (ix2 i (0 : Fin 1)) - p (ix2 j (0 : Fin 1))))

/-- The contribution of the pair `(i, j)`: zero on the diagonal, else the signed squared difference. -/
def entry (p : Col.Idx → EReal) (l : Col.Idx → BitVec 32) (i j : Fin 8192) : EReal :=
  if i = j then Ideal.ofBits .f32 0x00000000#32 else signedSq p l i j

/-- A selection that takes the signed square where a bit says "off the diagonal" is the contribution. -/
theorem select_offdiag (p : Col.Idx → EReal) (l : Col.Idx → BitVec 32) (i j : Fin 8192) (d : BitVec 1)
    (hd : d = 1#1 ↔ ¬ i = j) :
    Scalar.select d (signedSq p l i j) (Ideal.ofBits .f32 0x00000000#32) = entry p l i j := by
  unfold entry Scalar.select
  by_cases h : i = j
  · rw [if_pos h]; exact if_neg (fun hd' => (hd.mp hd') h)
  · rw [if_neg h]; exact if_pos (hd.mpr h)

/-- A selection that takes zero where a bit says "on the diagonal" is the contribution. -/
theorem select_diag (p : Col.Idx → EReal) (l : Col.Idx → BitVec 32) (i j : Fin 8192) (d : BitVec 1)
    (hd : d = 1#1 ↔ i = j) :
    Scalar.select d (Ideal.ofBits .f32 0x00000000#32) (signedSq p l i j) = entry p l i j := by
  unfold entry Scalar.select
  by_cases h : i = j
  · rw [if_pos h]; exact if_pos (hd.mpr h)
  · rw [if_neg h]; exact if_neg (fun hd' => h (hd.mp hd'))

/-- The loss: the sum of the contributions of all pairs. -/
def total (p : Col.Idx → EReal) (l : Col.Idx → BitVec 32) : EReal :=
  ∑ i : Fin 8192, ∑ j : Fin 8192, entry p l i j

/-- Index `r` of block `a`, as an index of the whole axis: `1024 · a + r`. -/
def inBlock (a : Fin 8) (r : Fin 1024) : Fin 8192 := ⟨1024 * a.val + r.val, by have := a.isLt; have := r.isLt; omega⟩

theorem inBlock_val (a : Fin 8) (r : Fin 1024) : (inBlock a r).val = 1024 * a.val + r.val := rfl

/-- The block row and block column of tile `t` of the 8 × 8 grid, row-major. -/
def tileRow (t : Fin 64) : Fin 8 := ⟨t.val / 8, by have := t.isLt; omega⟩
def tileCol (t : Fin 64) : Fin 8 := ⟨t.val % 8, by omega⟩

/-- The sum of `f` over tile `t`: rows first, then columns inside a row. -/
def tile {M : Type*} [AddCommMonoid M] (f : Fin 8192 → Fin 8192 → M) (t : Fin 64) : M :=
  ∑ r : Fin 1024, ∑ c : Fin 1024, f (inBlock (tileRow t) r) (inBlock (tileCol t) c)

/-- A sum over `Fin (m · n)` is a double sum over blocks and positions inside a block. -/
theorem sum_fin_mul {M : Type*} [AddCommMonoid M] (m n : ℕ) (g : Fin (m * n) → M) :
    ∑ i, g i = ∑ a : Fin m, ∑ r : Fin n, g (finProdFinEquiv (a, r)) := by
  rw [← Fintype.sum_prod_type' (f := fun a r => g (finProdFinEquiv (a, r)))]
  exact (Equiv.sum_comp finProdFinEquiv g).symm

theorem prod_eq_inBlock (a : Fin 8) (r : Fin 1024) : (finProdFinEquiv (a, r) : Fin (8 * 1024)) = inBlock a r :=
  Fin.ext (by rw [finProdFinEquiv_apply_val, inBlock_val]; exact Nat.add_comm _ _)

theorem tileRow_prod (a b : Fin 8) : tileRow (finProdFinEquiv (a, b) : Fin (8 * 8)) = a :=
  Fin.ext (by show (finProdFinEquiv (a, b) : Fin (8 * 8)).val / 8 = a.val
              rw [finProdFinEquiv_apply_val]; have := b.isLt; show (b.val + 8 * a.val) / 8 = a.val; omega)

theorem tileCol_prod (a b : Fin 8) : tileCol (finProdFinEquiv (a, b) : Fin (8 * 8)) = b :=
  Fin.ext (by show (finProdFinEquiv (a, b) : Fin (8 * 8)).val % 8 = b.val
              rw [finProdFinEquiv_apply_val]; have := b.isLt; show (b.val + 8 * a.val) % 8 = b.val; omega)

/-- A sum over one axis, block by block. -/
theorem sum_blocks {M : Type*} [AddCommMonoid M] (g : Fin 8192 → M) :
    ∑ i, g i = ∑ a : Fin 8, ∑ r : Fin 1024, g (inBlock a r) := by
  rw [sum_fin_mul 8 1024 g]
  exact Finset.sum_congr rfl fun a _ => Finset.sum_congr rfl fun r _ => congrArg g (prod_eq_inBlock a r)

/-- THE REGROUPING: the double sum over all pairs is the sum over the 64 tiles of each tile's double sum. -/
theorem sum_pairs_eq_sum_tiles {M : Type*} [AddCommMonoid M] (f : Fin 8192 → Fin 8192 → M) :
    ∑ i, ∑ j, f i j = ∑ t : Fin 64, tile f t := by
  rw [sum_fin_mul 8 8 (tile f), sum_blocks fun i => ∑ j, f i j]
  refine Finset.sum_congr rfl fun a _ => ?_
  have h1 : ∀ r : Fin 1024, ∑ j, f (inBlock a r) j = ∑ b : Fin 8, ∑ c : Fin 1024, f (inBlock a r) (inBlock b c) :=
    fun r => sum_blocks fun j => f (inBlock a r) j
  rw [Finset.sum_congr rfl fun r _ => h1 r, Finset.sum_comm]
  refine Finset.sum_congr rfl fun b _ => ?_
  unfold tile
  rw [tileRow_prod, tileCol_prod]

theorem total_eq_tiles (p : Col.Idx → EReal) (l : Col.Idx → BitVec 32) :
    total p l = ∑ t : Fin 64, tile (entry p l) t := sum_pairs_eq_sum_tiles _

/-- A running sum that starts at `z + S 0` and adds `S n` at step `n` has, after step `n`, the value
    `z + ∑_{k ≤ n} S k`. -/
theorem running_sum (S : ℕ → EReal) (z : EReal) (acc : ℕ → EReal) (h0 : acc 0 = z + S 0)
    (hs : ∀ n, acc (n + 1) = acc n + S (n + 1)) (n : ℕ) : acc n = z + ∑ k ∈ Finset.range (n + 1), S k := by
  induction n with
  | zero => rw [h0, Finset.sum_range_one]
  | succ n ih => rw [hs, ih, Finset.sum_range_succ _ (n + 1), add_assoc]

/-! ## The diagonal tests, as the two programs spell them on 32-bit words -/

theorem ofNat_eq_iff {a b : ℕ} (ha : a < 2 ^ 32) (hb : b < 2 ^ 32) : BitVec.ofNat 32 a = BitVec.ofNat 32 b ↔ a = b := by
  constructor
  · intro h
    have h' := congrArg BitVec.toNat h
    rw [BitVec.toNat_ofNat, BitVec.toNat_ofNat, Nat.mod_eq_of_lt ha, Nat.mod_eq_of_lt hb] at h'
    exact h'
  · rintro rfl; rfl

/-- A word comparison for equality is the set bit exactly when the words are equal. -/
theorem cmpi_eq_one_iff (x y : BitVec 32) : IntOp.cmpi .eq x y = 1#1 ↔ x = y := by
  show BitVec.ofBool (x == y) = 1#1 ↔ x = y
  by_cases h : x = y
  · subst h; simp
  · have hb : (x == y) = false := beq_eq_false_iff_ne.mpr h
    rw [hb]; exact ⟨fun h' => absurd h' (by decide), fun h' => absurd h' h⟩

/-- Its complement is the set bit exactly when they differ. -/
theorem not_cmpi_eq_one_iff (x y : BitVec 32) : ~~~(IntOp.cmpi .eq x y) = 1#1 ↔ ¬ x = y := by
  show ~~~(BitVec.ofBool (x == y)) = 1#1 ↔ ¬ x = y
  by_cases h : x = y
  · subst h; simp
  · have hb : (x == y) = false := beq_eq_false_iff_ne.mpr h
    rw [hb]; exact ⟨fun _ => h, fun _ => by decide⟩

/-- Whole-axis form: `i + 0 == j` on words, negated, is set exactly off the diagonal. -/
theorem offdiag_word (i j : Fin 8192) :
    (~~~(IntOp.cmpi .eq (IntOp.addi (BitVec.ofNat 32 i.val) 0#32) (BitVec.ofNat 32 j.val)) = 1#1) ↔ ¬ i = j := by
  have hi := i.isLt; have hj := j.isLt
  rw [not_cmpi_eq_one_iff, show IntOp.addi (BitVec.ofNat 32 i.val) 0#32 = BitVec.ofNat 32 i.val from BitVec.add_zero _,
    ofNat_eq_iff (by omega) (by omega)]
  exact not_congr ⟨fun h => Fin.ext h, fun h => congrArg Fin.val h⟩

/-- Tiled form: `a · 1024 + r == b · 1024 + c` on words is set exactly where the two whole-axis indices meet. -/
theorem diag_word (a b : Fin 8) (r c : Fin 1024) :
    (IntOp.cmpi .eq (IntOp.addi (Scalar.muli (BitVec.ofNat 32 a.val) 1024#32) (BitVec.ofNat 32 r.val))
        (IntOp.addi (Scalar.muli (BitVec.ofNat 32 b.val) 1024#32) (BitVec.ofNat 32 c.val)) = 1#1)
      ↔ inBlock a r = inBlock b c := by
  have e : ∀ (x : Fin 8) (y : Fin 1024),
      IntOp.addi (Scalar.muli (BitVec.ofNat 32 x.val) 1024#32) (BitVec.ofNat 32 y.val) = BitVec.ofNat 32 (inBlock x y).val := by
    intro x y
    unfold IntOp.addi Scalar.muli IntOp.muli
    rw [inBlock_val, show (1024#32 : BitVec 32) = BitVec.ofNat 32 1024 from rfl, ← BitVec.ofNat_mul, ← BitVec.ofNat_add,
      Nat.mul_comm]
  have hA := (inBlock a r).isLt; have hB := (inBlock b c).isLt
  rw [e a r, e b c, cmpi_eq_one_iff, ofNat_eq_iff (by omega) (by omega)]
  exact ⟨fun h => Fin.ext h, fun h => congrArg Fin.val h⟩

end Cert.PairSum

end
-- ==== Proof.RefSide.lean ====
/-
  The reference computes the loss.

  The reference builds the 8192 × 8192 array of contributions — the two columns broadcast along rows and along
  columns, their difference squared, the sign chosen by comparing the two broadcast label columns, zero where the two
  iotas agree — and sums it over both axes from zero.  Entry `(i, j)` of that array is the contribution of the pair
  `(i, j)`; the sum over the rank-2 index set is the double sum over its coordinates.
-/
import proofs.«124496_j78451872629246_1_alg».proof.Defs
import proofs.«124496_j78451872629246_1_alg».proof.Proof.Gen.ReferenceIdeal
import proofs.«124496_j78451872629246_1_alg».proof.Proof.Gen.ReferenceIdeal.Run
import proofs.«124496_j78451872629246_1_alg».proof.Proof.Gen.ReferenceIdeal.Read
import proofs.«124496_j78451872629246_1_alg».proof.Proof.PairSum
import Idealize.ShloMosaic.Lib.ValueIdx

noncomputable section

namespace Cert.ReferenceIdeal.RefValue

open Cert.ReferenceIdeal Cert.ReferenceIdeal.Gen Cert.ReferenceIdeal.Read
open Idealize.ShloMosaic Idealize.ShloMosaic.ValueIdx Cert.PairSum
open scoped BigOperators

/-- Row broadcasts: entry `(i, j)` reads the column at row `i`. -/
theorem idx_p_row (i j : Fin 8192) : idx_main_v0 (idx_main_v1 (idx_main_v3 (ix2 i j))) = ix2 i (0 : Fin 1) :=
  funext fun a => Fin.ext (by match a with | ⟨0, _⟩ => exact Nat.div_one _ | ⟨1, _⟩ => rfl)

/-- Column broadcasts: entry `(i, j)` reads the column at row `j`. -/
theorem idx_p_col (i j : Fin 8192) : idx_main_v0 (idx_main_v2 (idx_main_v4 (ix2 i j))) = ix2 j (0 : Fin 1) :=
  funext fun a => Fin.ext (by match a with | ⟨0, _⟩ => exact Nat.div_one _ | ⟨1, _⟩ => rfl)

theorem idx_l_row (i j : Fin 8192) : idx_main_v7 (idx_main_v8 (idx_main_v10 (ix2 i j))) = ix2 i (0 : Fin 1) :=
  funext fun a => Fin.ext (by match a with | ⟨0, _⟩ => exact Nat.div_one _ | ⟨1, _⟩ => rfl)

theorem idx_l_col (i j : Fin 8192) : idx_main_v7 (idx_main_v9 (idx_main_v11 (ix2 i j))) = ix2 j (0 : Fin 1) :=
  funext fun a => Fin.ext (by match a with | ⟨0, _⟩ => exact Nat.div_one _ | ⟨1, _⟩ => rfl)

/-- Entry `(i, j)` of the array the reference sums is the contribution of the pair `(i, j)`. -/
theorem entry_eq (x0 : S8192x1.Idx → EReal) (x1 : S8192x1.Idx → BitVec 32) (i j : Fin 8192) :
    val_main_v22 (F := Ideal) x0 x1 (ix2 i j) = entry x0 x1 i j := by
  simp only [val_main_v22_apply, val_main_v21_apply, val_main_v20_apply, val_main_v19_apply, val_main_v18_apply,
    val_main_v17_apply, val_main_v16_apply, val_main_v15_apply, val_main_c_apply, val_main_v14_apply, val_main_v13_apply,
    val_main_v12_apply, val_main_v11_apply, val_main_v10_apply, val_main_v9_apply, val_main_v8_apply, val_main_v7_apply,
    val_main_v6_apply, val_main_v5_apply, val_main_v4_apply, val_main_v3_apply, val_main_v2_apply, val_main_v1_apply,
    val_main_v0_apply, val_main_call0_v0_apply, val_main_call0_v1_apply, val_main_cst_apply, val_main_cst_0_apply,
    val_main_call1_v1_apply, val_main_call1_v0_apply, val_main_cst_1_apply,
    idx_p_row, idx_p_col, idx_l_row, idx_l_col]
  exact select_offdiag x0 x1 i j _ (offdiag_word i j)

/-- The reference's result is the loss. -/
theorem result_eq (x0 : S8192x1.Idx → EReal) (x1 : S8192x1.Idx → BitVec 32) :
    val_main_v23 (F := Ideal) x0 x1 = fun _ => total x0 x1 := by
  funext k
  rw [val_main_v23_apply, val_main_cst_2_apply, sum_idx2]
  show Ideal.ofBits .f32 0x00000000#32 + _ = _
  rw [Ideal.ofBits_zero_f32, zero_add]
  exact Finset.sum_congr rfl fun i _ => Finset.sum_congr rfl fun j _ => entry_eq x0 x1 i j

end Cert.ReferenceIdeal.RefValue

end
-- ==== Proof.KernelPieces.lean ====
/-
  What one grid point leaves in the accumulator and in the output.

  The body keeps a 1 × 1 accumulator across the 64 grid points.  At the first point it stores zero into it; at every
  point it then stores the accumulator's contents plus the point's tile sum; at the last point it copies the
  accumulator into the 1 × 1 output block.  Each lemma below reads one case's stores back as a value: the accumulator
  after the first point is `0 ⊕ tile`, after any later point `previous ⊕ tile`, and the output block after the last
  point is the accumulator it has just updated.  (`⊕` and `tile` are the body's own terms, generic in the float
  instance; they are read as real arithmetic in the next module.)
-/
import proofs.«124496_j78451872629246_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- After the first point the accumulator holds the update of the zero it has just been reset to. -/
theorem scratch_A (c : Dev nD) (i : grid0.Coords) (a2 : Memref sig .tc .vmem S1024x1 .f32) (h2 : a2.IsWhole) (a3 : Memref sig .tc .vmem S1x1024 .f32) (h3 : a3.IsWhole) (a4 : Memref sig .tc .vmem S1024x1 .i32) (h4 : a4.IsWhole) (a5 : Memref sig .tc .vmem S1x1024 .i32) (h5 : a5.IsWhole) (a6 : Memref sig .tc .vmem S1x1 .f32) (h6 : a6.IsWhole) (a7 : Memref sig .tc .vmem S1x1 .f32) (h7 : a7.IsWhole) (hc0 : cond0_0 i) (hc1 : ¬cond0_1 i) (x0 : Vec F S1024x1 .f32) (x1 : Vec F S1x1024 .f32) (x2 : Vec F S1024x1 .i32) (x3 : Vec F S1x1024 .i32) :
    sout0_A_0 c i a2 h2 a3 h3 a4 h4 a5 h5 a6 h6 a7 h7 hc0 hc1 x0 x1 x2 x3 = k0_pay1 (k0_pay3 i x0 x1 x2 x3) (k0_pay2 (F := F)) := by
  unfold sout0_A_0
  rw [View.read_writes_eq_canon _ _ _ (scover0_A_0 c i a2 h2 a3 h3 a4 h4 a5 h5 a6 h6 a7 h7 hc0 hc1 x0 x1 x2 x3)]
  unfold kernelRun0_A
  dsimp only
  sl_unfold_words
  rw [View.canon_cons_unit_zero (S := S1x1) hz, View.readCov_unit_zero (S := S1x1) _ hz]
  simp only [View.readAt_eq_ld, h2.read_unread, h3.read_unread, h4.read_unread, h5.read_unread, h7.read_unread,
    View.ld_unit_zero (S := S1024x1) hz, View.ld_unit_zero (S := S1x1024) hz, View.ld_unit_zero (S := S1x1) hz]

/-- After a middle point the accumulator holds the update of what the point before left. -/
theorem scratch_B (c : Dev nD) (i : grid0.Coords) (a2 : Memref sig .tc .vmem S1024x1 .f32) (h2 : a2.IsWhole) (a3 : Memref sig .tc .vmem S1x1024 .f32) (h3 : a3.IsWhole) (a4 : Memref sig .tc .vmem S1024x1 .i32) (h4 : a4.IsWhole) (a5 : Memref sig .tc .vmem S1x1024 .i32) (h5 : a5.IsWhole) (a6 : Memref sig .tc .vmem S1x1 .f32) (h6 : a6.IsWhole) (a7 : Memref sig .tc .vmem S1x1 .f32) (h7 : a7.IsWhole) (hc0 : ¬cond0_0 i) (hc1 : ¬cond0_1 i) (x0 : Vec F S1024x1 .f32) (x1 : Vec F S1x1024 .f32) (x2 : Vec F S1024x1 .i32) (x3 : Vec F S1x1024 .i32) (xs0 : Vec F S1x1 .f32) :
    sout0_B_0 c i a2 h2 a3 h3 a4 h4 a5 h5 a6 h6 a7 h7 hc0 hc1 x0 x1 x2 x3 xs0 = k0_pay1 (k0_pay3 i x0 x1 x2 x3) xs0 := by
  unfold sout0_B_0
  rw [View.read_writes_eq_canon _ _ _ (scover0_B_0 c i a2 h2 a3 h3 a4 h4 a5 h5 a6 h6 a7 h7 hc0 hc1 x0 x1 x2 x3 xs0)]
  unfold kernelRun0_B
  dsimp only
  sl_unfold_words
  rw [View.canon_unit_zero hz]
  simp only [View.readAt_eq_ld, h2.read_unread, h3.read_unread, h4.read_unread, h5.read_unread, h7.read_unread,
    View.ld_unit_zero (S := S1024x1) hz, View.ld_unit_zero (S := S1x1024) hz, View.ld_unit_zero (S := S1x1) hz]

/-- After the last point likewise. -/
theorem scratch_C (c : Dev nD) (i : grid0.Coords) (a2 : Memref sig .tc .vmem S1024x1 .f32) (h2 : a2.IsWhole) (a3 : Memref sig .tc .vmem S1x1024 .f32) (h3 : a3.IsWhole) (a4 : Memref sig .tc .vmem S1024x1 .i32) (h4 : a4.IsWhole) (a5 : Memref sig .tc .vmem S1x1024 .i32) (h5 : a5.IsWhole) (a6 : Memref sig .tc .vmem S1x1 .f32) (h6 : a6.IsWhole) (a7 : Memref sig .tc .vmem S1x1 .f32) (h7 : a7.IsWhole) (hc0 : ¬cond0_0 i) (hc1 : cond0_1 i) (x0 : Vec F S1024x1 .f32) (x1 : Vec F S1x1024 .f32) (x2 : Vec F S1024x1 .i32) (x3 : Vec F S1x1024 .i32) (xs0 : Vec F S1x1 .f32) :
    sout0_C_0 c i a2 h2 a3 h3 a4 h4 a5 h5 a6 h6 a7 h7 hc0 hc1 x0 x1 x2 x3 xs0 = k0_pay1 (k0_pay3 i x0 x1 x2 x3) xs0 := by
  unfold sout0_C_0
  rw [View.read_writes_eq_canon _ _ _ (scover0_C_0 c i a2 h2 a3 h3 a4 h4 a5 h5 a6 h6 a7 h7 hc0 hc1 x0 x1 x2 x3 xs0)]
  unfold kernelRun0_C
  dsimp only
  sl_unfold_words
  rw [View.canon_unit_zero hz]
  simp only [View.readAt_eq_ld, h2.read_unread, h3.read_unread, h4.read_unread, h5.read_unread, h7.read_unread,
    View.ld_unit_zero (S := S1024x1) hz, View.ld_unit_zero (S := S1x1024) hz, View.ld_unit_zero (S := S1x1) hz]

/-- At the last point the output block receives the accumulator as just updated. -/
theorem out_C (c : Dev nD) (i : grid0.Coords) (a2 : Memref sig .tc .vmem S1024x1 .f32) (h2 : a2.IsWhole) (a3 : Memref sig .tc .vmem S1x1024 .f32) (h3 : a3.IsWhole) (a4 : Memref sig .tc .vmem S1024x1 .i32) (h4 : a4.IsWhole) (a5 : Memref sig .tc .vmem S1x1024 .i32) (h5 : a5.IsWhole) (a6 : Memref sig .tc .vmem S1x1 .f32) (h6 : a6.IsWhole) (a7 : Memref sig .tc .vmem S1x1 .f32) (h7 : a7.IsWhole) (hc0 : ¬cond0_0 i) (hc1 : cond0_1 i) (x0 : Vec F S1024x1 .f32) (x1 : Vec F S1x1024 .f32) (x2 : Vec F S1024x1 .i32) (x3 : Vec F S1x1024 .i32) (xs0 : Vec F S1x1 .f32) :
    out0_C_4 c i a2 h2 a3 h3 a4 h4 a5 h5 a6 h6 a7 h7 hc0 hc1 x0 x1 x2 x3 xs0 = k0_pay1 (k0_pay3 i x0 x1 x2 x3) xs0 := by
  unfold out0_C_4
  rw [View.read_writes_eq_canon _ _ _ (cover0_C_4 c i a2 h2 a3 h3 a4 h4 a5 h5 a6 h6 a7 h7 hc0 hc1 x0 x1 x2 x3 xs0)]
  unfold kernelRun0_C
  dsimp only
  sl_unfold_words
  rw [View.canon_unit_zero hz, View.readCov_unit_zero (S := S1x1) _ hz]
  simp only [View.readAt_eq_ld, h2.read_unread, h3.read_unread, h4.read_unread, h5.read_unread, h7.read_unread,
    View.ld_unit_zero (S := S1024x1) hz, View.ld_unit_zero (S := S1x1024) hz, View.ld_unit_zero (S := S1x1) hz]

end Cert.KernelIdeal.Pieces

end
-- ==== Proof.LibColumns.lean ====
/-
  Column vectors and row sums read at an index.

  A vector of length a viewed as a column [a, 1]; a column broadcast along its unit axis to [a, b]; and the sum of a
  matrix along its second axis, read at a row.  Each reads ONE entry (or one row) of its operand, named here by
  coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Cert.Columns

open Idealize.ShloMosaic Idealize.ShloMosaic.ValueIdx
open scoped BigOperators

variable {α : Type}

/-- A vector of length `a` viewed as a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an `[a, n]` matrix of extended reals along its second axis, started from the zero word and read at row
    `r`, is `∑ₖ v(r, k)`. -/
theorem multiReduction_add_row {a n : ℕ} (v : FVec Ideal ⟨2, ![a, n]⟩ .f32)
    (h : (⟨2, ![a, n]⟩ : Shape).Reduces [1] ⟨1, ![a]⟩) (hφ : FKind.Formats .f32)
    (hacc : (0x00000000#32 : BitVec 32) = 0x00000000#32) (r : Fin a) :
    multiReduction .add [1] ⟨1, ![a]⟩ v 0x00000000#32 h hφ hacc (ix1 r) = ∑ k : Fin n, v (ix2 r k) := by
  refine (Ideal.multiReduction_add_single v 0x00000000#32 h hφ hacc (ix1 r)).trans ?_
  refine Finset.sum_congr rfl fun k _ => ?_
  exact congrArg v (funext fun ax => Fin.ext (by match ax with | ⟨0, _⟩ => rfl | ⟨1, _⟩ => rfl))

end Cert.Columns

end
-- ==== Proof.LibColumnSum.lean ====
/-
  Column sums, and the row and column counters of a rank-2 vector, read at an index.

  The sum of a matrix along its FIRST axis, read at a column; a word comparison and a word addition of two vectors
  read at an index; and the two index counters of an `[a, b]` vector (the row number, the column number) read at
  `(r, c)`.
-/
import Idealize.ShloMosaic.Lib.ValueIdx
import Idealize.ShloMosaic.Lib.Pipeline.Value
import Idealize.ShloMosaic.PureOps.Ideal.Laws

noncomputable section

namespace Cert.ColumnSum

open Idealize.ShloMosaic Idealize.ShloMosaic.ValueIdx
open scoped BigOperators

/-- The sum of an `[a, n]` matrix of extended reals along its first axis, started from the zero word and read at
    column `c`, is `∑ₖ v(k, c)`. -/
theorem multiReduction_add_col {a n : ℕ} (v : FVec Ideal ⟨2, ![a, n]⟩ .f32)
    (h : (⟨2, ![a, n]⟩ : Shape).Reduces [0] ⟨1, ![n]⟩) (hφ : FKind.Formats .f32)
    (hacc : (0x00000000#32 : BitVec 32) = 0x00000000#32) (c : Fin n) :
    multiReduction .add [0] ⟨1, ![n]⟩ v 0x00000000#32 h hφ hacc (ix1 c) = ∑ k : Fin a, v (ix2 k c) := by
  refine (Ideal.multiReduction_add_single v 0x00000000#32 h hφ hacc (ix1 c)).trans ?_
  refine Finset.sum_congr rfl fun k _ => ?_
  exact congrArg v (funext fun ax => Fin.ext (by match ax with | ⟨0, _⟩ => rfl | ⟨1, _⟩ => rfl))

/-- A word comparison of two vectors is the comparison of their entries. -/
theorem cmpi_at {s : Shape} {w : ℕ} (p : CmpIPredicate) (x y : IVec s w) (j : s.Idx) :
    cmpi p x y j = IntOp.cmpi p (x j) (y j) := rfl

/-- A word addition of two vectors is the addition of their entries. -/
theorem addi_at {s : Shape} {w : ℕ} (x y : IVec s w) (j : s.Idx) : addi x y j = IntOp.addi (x j) (y j) := rfl

/-- The row counter of an `[a, b]` vector reads, at `(r, c)`, the word `r`. -/
theorem iota_rows_at {a b : ℕ} (h : (⟨2, ![a, b]⟩ : Shape).Iotas .tc 32 [0]) (r : Fin a) (c : Fin b) :
    iota .tc ⟨2, ![a, b]⟩ 32 [0] h (ix2 r c) = BitVec.ofNat 32 r.val := by
  show BitVec.ofNat 32 (0 * a + r.val) = _
  rw [Nat.zero_mul, Nat.zero_add]

/-- The column counter of an `[a, b]` vector reads, at `(r, c)`, the word `c`. -/
theorem iota_cols_at {a b : ℕ} (h : (⟨2, ![a, b]⟩ : Shape).Iotas .tc 32 [1]) (r : Fin a) (c : Fin b) :
    iota .tc ⟨2, ![a, b]⟩ 32 [1] h (ix2 r c) = BitVec.ofNat 32 c.val := by
  show BitVec.ofNat 32 (0 * b + c.val) = _
  rw [Nat.zero_mul, Nat.zero_add]

end Cert.ColumnSum

end
-- ==== Proof.KernelTile.lean ====
/-
  A grid point's tile sum, over the reals.

  At grid point `(a, b)` the body sees rows `1024·a … 1024·a + 1023` of the two columns (as 1024 × 1 blocks) and
  rows `1024·b … 1024·b + 1023` of the same columns laid out as rows (as 1 × 1024 blocks).  It forms the 1024 × 1024
  array whose entry `(r, c)` is the contribution of the pair `(1024·a + r, 1024·b + c)` — the diagonal test compares
  `a·1024 + r` with `b·1024 + c` as words, which is the comparison of the two whole-axis indices —, sums each row,
  then sums the column of row sums.  Over the extended reals that is the double sum of the tile's contributions.
-/
import proofs.«124496_j78451872629246_1_alg».proof.Proof.Gen.KernelIdeal.Skeleton
import proofs.«124496_j78451872629246_1_alg».proof.Proof.PairSum
import proofs.«124496_j78451872629246_1_alg».proof.Proof.LibColumns
import proofs.«124496_j78451872629246_1_alg».proof.Proof.LibColumnSum
import Idealize.ShloMosaic.Lib.ValueLayout

noncomputable section

namespace Cert.KernelIdeal.TileValue

open Cert.KernelIdeal Cert.KernelIdeal.Gen
open Idealize.ShloMosaic Idealize.ShloMosaic.ValueIdx Cert.PairSum Cert.Columns Cert.ColumnSum
open scoped BigOperators

/-- The tile sum of grid point `(a, b)`, from blocks that hold the columns' rows of block `a` and block `b`. -/
theorem tile_sum (i : grid0.Coords) (x0 : Vec Ideal S1024x1 .f32) (x1 : Vec Ideal S1x1024 .f32)
    (x2 : Vec Ideal S1024x1 .i32) (x3 : Vec Ideal S1x1024 .i32)
    (p : Col.Idx → EReal) (l : Col.Idx → BitVec 32) (a b : Fin 8)
    (ha : (i 0).val = a.val) (hb : (i 1).val = b.val)
    (h0 : ∀ r : Fin 1024, x0 (ix2 r (0 : Fin 1)) = p (ix2 (inBlock a r) (0 : Fin 1)))
    (h1 : ∀ c : Fin 1024, x1 (ix2 (0 : Fin 1) c) = p (ix2 (inBlock b c) (0 : Fin 1)))
    (h2 : ∀ r : Fin 1024, x2 (ix2 r (0 : Fin 1)) = l (ix2 (inBlock a r) (0 : Fin 1)))
    (h3 : ∀ c : Fin 1024, x3 (ix2 (0 : Fin 1) c) = l (ix2 (inBlock b c) (0 : Fin 1))) :
    k0_pay3 (F := Ideal) i x0 x1 x2 x3 (ix2 (0 : Fin 1) (0 : Fin 1))
      = ∑ r : Fin 1024, ∑ c : Fin 1024, entry p l (inBlock a r) (inBlock b c) := by
  unfold k0_pay3
  dsimp only
  refine (shapeCast_a_a1_apply _ _ (0 : Fin 1) (0 : Fin 1)).trans ?_
  refine (multiReduction_add_col _ _ _ _ (0 : Fin 1)).trans ?_
  refine Finset.sum_congr rfl fun r _ => ?_
  refine (shapeCast_a_a1_apply _ _ r (0 : Fin 1)).trans ?_
  refine (multiReduction_add_row _ _ _ _ r).trans ?_
  refine Finset.sum_congr rfl fun c _ => ?_
  have e0 : ∀ h, broadcastTo S1024x1024 x0 h (ix2 r c) = p (ix2 (inBlock a r) (0 : Fin 1)) :=
    fun h => (broadcastTo_a1_ab_apply x0 h r c).trans (h0 r)
  have e1 : ∀ hs h, broadcastTo S1024x1024 (shapeCast S1x1024 x1 hs) h (ix2 r c) = p (ix2 (inBlock b c) (0 : Fin 1)) :=
    fun hs h => by rw [shapeCast_self]; exact (broadcastTo_1b_ab_apply x1 h r c).trans (h1 c)
  have e2 : ∀ h, broadcastTo S1024x1024 x2 h (ix2 r c) = l (ix2 (inBlock a r) (0 : Fin 1)) :=
    fun h => (broadcastTo_a1_ab_apply x2 h r c).trans (h2 r)
  have e3 : ∀ hs h, broadcastTo S1024x1024 (shapeCast S1x1024 x3 hs) h (ix2 r c) = l (ix2 (inBlock b c) (0 : Fin 1)) :=
    fun hs h => by rw [shapeCast_self]; exact (broadcastTo_1b_ab_apply x3 h r c).trans (h3 c)
  have er : ∀ h, iota .tc S1024x1024 32 [0] h (ix2 r c) = BitVec.ofNat 32 r.val := fun h => iota_rows_at h r c
  have ec : ∀ h, iota .tc S1024x1024 32 [1] h (ix2 r c) = BitVec.ofNat 32 c.val := fun h => iota_cols_at h r c
  simp only [select_apply, cmpi_at, addi_at, mulf_apply, subf_apply, broadcast_apply, er, ec, e0, e1, e2, e3, ha, hb]
  exact select_diag p l _ _ _ (diag_word a b r c)

/-- The update of the accumulator adds the tile sum to it. -/
theorem update_apply (s : Vec Ideal S1x1 .f32) (v : Vec Ideal S1x1 .f32) (y : S1x1.Idx) :
    k0_pay1 (F := Ideal) s v y = v y + s y := by
  unfold k0_pay1
  rw [shapeCast_self]
  rfl

/-- The reset value is zero. -/
theorem reset_apply (y : S1x1.Idx) : k0_pay2 (F := Ideal) y = 0 := by
  unfold k0_pay2
  rw [shapeCast_self]
  exact Ideal.ofBits_zero_f32

end Cert.KernelIdeal.TileValue

end
-- ==== Proof.KernelValue.lean ====
/-
  The kernel computes the loss.

  The region runs the body at the 64 points of an 8 × 8 grid, row-major.  Point `t` is tile `(t / 8, t % 8)`: its four
  input blocks are rows `1024 · (t / 8) …` of the two columns and rows `1024 · (t % 8) …` of the same columns laid out
  as rows (the host reshapes them before the region), so its tile term is the sum of the contributions of that tile.
  The accumulator is reset to zero at the first point and adds the point's tile sum at every point, so after point
  `n` it holds the sum of tiles `0 … n` (induction on the point); after the last point it holds the sum of all 64
  tiles, which is the double sum over all pairs regrouped.  The last point copies it into the 1 × 1 result block, the
  only block ever written back, which is the whole result array; the host then reshapes that array to a scalar.
-/
import proofs.«124496_j78451872629246_1_alg».proof.Defs
import proofs.«124496_j78451872629246_1_alg».proof.Proof.Gen.KernelIdeal.Frame
import proofs.«124496_j78451872629246_1_alg».proof.Proof.KernelPieces
import proofs.«124496_j78451872629246_1_alg».proof.Proof.KernelTile
import proofs.«124496_j78451872629246_1_alg».proof.Proof.PairSum
import Idealize.ShloMosaic.Lib.Pipeline.Value
import Idealize.ShloMosaic.Lib.StableHlo.Run
import Idealize.ShloMosaic.Lib.Tactic

noncomputable section

namespace Cert.KernelIdeal.LossValue

open Cert.KernelIdeal Cert.KernelIdeal.Gen Cert.KernelIdeal.Pieces Cert.KernelIdeal.TileValue Cert.PairSum
open Idealize.ShloMosaic Idealize.ShloMosaic.TcCoe Idealize.SL.Sem Idealize.ShloMosaic.ValueIdx
open Idealize.ShloMosaic.Pipeline (Dat)
open scoped BigOperators

variable (m : (ℓ : Loc nD τ sig) → Buf (Elt Ideal) ℓ) (ρ : Dev nD → PrngReg)

/-- The two argument columns on core `c`. -/
abbrev pArg (c : Dev nD) : Col.Idx → EReal := m ((c : Thread nD τ).loc main_arg0)
abbrev lArg (c : Dev nD) : Col.Idx → BitVec 32 := m ((c : Thread nD τ).loc main_arg1)

/-- A grid point as a number below 64. -/
def pt (t : Fin cfg0.N) : Fin 64 := ⟨t.val, lt_of_lt_of_eq t.isLt (show cfg0.N = 64 from N_0)⟩

/-- The block indices and the grid coordinates at each point, decided once over the grid: point `t` is tile
    `(t / 8, t % 8)`. -/
theorem idx_facts : ∀ t : Fin cfg0.N,
    (win0_0.index t 0 = t.val / 8 ∧ win0_0.index t 1 = 0) ∧ (win0_1.index t 0 = 0 ∧ win0_1.index t 1 = t.val % 8)
    ∧ (win0_2.index t 0 = t.val / 8 ∧ win0_2.index t 1 = 0) ∧ (win0_3.index t 0 = 0 ∧ win0_3.index t 1 = t.val % 8)
    ∧ ((grid0.coords t 0).val = t.val / 8 ∧ (grid0.coords t 1).val = t.val % 8) :=
  (by decide +kernel : ∀ t : Fin grid0.N,
    (win0_0.index t 0 = t.val / 8 ∧ win0_0.index t 1 = 0) ∧ (win0_1.index t 0 = 0 ∧ win0_1.index t 1 = t.val % 8)
    ∧ (win0_2.index t 0 = t.val / 8 ∧ win0_2.index t 1 = 0) ∧ (win0_3.index t 0 = 0 ∧ win0_3.index t 1 = t.val % 8)
    ∧ ((grid0.coords t 0).val = t.val / 8 ∧ (grid0.coords t 1).val = t.val % 8))

/-! ## The arrays the region finds -/

/-- The first column laid out as a row, as the host reshapes it before the region. -/
theorem V_prow (c : Dev nD) (j : Fin 8192) :
    (V m c main_v0 : S1x8192.Idx → EReal) (ix2 (0 : Fin 1) j) = pArg m c (ix2 j (0 : Fin 1)) := by
  have e : (V m c main_v0 : S1x8192.Idx → EReal) = shapeCast S1x8192 (pArg m c) shapeCasts_S8192x1_S1x8192 := by
    show StableHlo.after hostOps0 (fun b => m (c, b)) (Proc.devRef .tc main_v0) = _
    after_results
    rfl
  rw [e]
  exact shapeCast_apply _ _ _ _ (by rw [Shape.rowMajor_val_two, Shape.rowMajor_val_two]; show j.val * 1 + 0 = 0 * 8192 + j.val; omega)

/-- The second column laid out as a row. -/
theorem V_lrow (c : Dev nD) (j : Fin 8192) :
    (V m c main_v1 : S1x8192.Idx → BitVec 32) (ix2 (0 : Fin 1) j) = lArg m c (ix2 j (0 : Fin 1)) := by
  have e : (V m c main_v1 : S1x8192.Idx → BitVec 32) = shapeCast S1x8192 (lArg m c) shapeCasts_S8192x1_S1x8192 := by
    show StableHlo.after hostOps0 (fun b => m (c, b)) (Proc.devRef .tc main_v1) = _
    after_results
    rfl
  rw [e]
  exact shapeCast_apply _ _ _ _ (by rw [Shape.rowMajor_val_two, Shape.rowMajor_val_two]; show j.val * 1 + 0 = 0 * 8192 + j.val; omega)

/-! ## The blocks of a grid point -/

/-- The input blocks of point `t`, at their literal types. -/
abbrev pcolBlk (c : Dev nD) (t : Fin cfg0.N) : Vec Ideal S1024x1 .f32 := iblk m c 0 t
abbrev prowBlk (c : Dev nD) (t : Fin cfg0.N) : Vec Ideal S1x1024 .f32 := iblk m c 1 t
abbrev lcolBlk (c : Dev nD) (t : Fin cfg0.N) : Vec Ideal S1024x1 .i32 := iblk m c 2 t
abbrev lrowBlk (c : Dev nD) (t : Fin cfg0.N) : Vec Ideal S1x1024 .i32 := iblk m c 3 t

/-- Row `r` of the first column's block at point `t` is row `1024 · (t / 8) + r` of the column. -/
theorem pcolBlk_apply (c : Dev nD) (t : Fin cfg0.N) (r : Fin 1024) :
    pcolBlk m c t (ix2 r (0 : Fin 1)) = pArg m c (ix2 (inBlock (tileRow (pt t)) r) (0 : Fin 1)) := by
  unfold pcolBlk iblk
  rw [View.read_apply]
  show V m c main_arg0 (((cfg0.win 0).blk t).view.emb (ix2 r (0 : Fin 1))) = _
  refine (congrFun (V_main_arg0 m c) _).trans (congrArg (pArg m c) (funext fun a => Fin.ext ?_))
  match a with
  | ⟨0, _⟩ =>
    show win0_0.index t 0 * 1024 + 1 * r.val = 1024 * (t.val / 8) + r.val
    rw [(idx_facts t).1.1]; omega
  | ⟨1, _⟩ =>
    show win0_0.index t 1 * 1 + 1 * 0 = 0
    rw [(idx_facts t).1.2]

/-- Entry `j` of the first column's row block at point `t` is row `1024 · (t % 8) + j` of the column. -/
theorem prowBlk_apply (c : Dev nD) (t : Fin cfg0.N) (j : Fin 1024) :
    prowBlk m c t (ix2 (0 : Fin 1) j) = pArg m c (ix2 (inBlock (tileCol (pt t)) j) (0 : Fin 1)) := by
  unfold prowBlk iblk
  rw [View.read_apply]
  show (V m c main_v0 : S1x8192.Idx → EReal) (((cfg0.win 1).blk t).view.emb (ix2 (0 : Fin 1) j)) = _
  refine Eq.trans (congrArg (V m c main_v0 : S1x8192.Idx → EReal)
    (?_ : _ = ix2 (0 : Fin 1) (inBlock (tileCol (pt t)) j))) (V_prow m c _)
  funext a; apply Fin.ext
  match a with
  | ⟨0, _⟩ =>
    show win0_1.index t 0 * 1 + 1 * 0 = 0
    rw [(idx_facts t).2.1.1]
  | ⟨1, _⟩ =>
    show win0_1.index t 1 * 1024 + 1 * j.val = 1024 * (t.val % 8) + j.val
    rw [(idx_facts t).2.1.2]; omega

theorem lcolBlk_apply (c : Dev nD) (t : Fin cfg0.N) (r : Fin 1024) :
    lcolBlk m c t (ix2 r (0 : Fin 1)) = lArg m c (ix2 (inBlock (tileRow (pt t)) r) (0 : Fin 1)) := by
  unfold lcolBlk iblk
  rw [View.read_apply]
  show V m c main_arg1 (((cfg0.win 2).blk t).view.emb (ix2 r (0 : Fin 1))) = _
  refine (congrFun (V_main_arg1 m c) _).trans (congrArg (lArg m c) (funext fun a => Fin.ext ?_))
  match a with
  | ⟨0, _⟩ =>
    show win0_2.index t 0 * 1024 + 1 * r.val = 1024 * (t.val / 8) + r.val
    rw [(idx_facts t).2.2.1.1]; omega
  | ⟨1, _⟩ =>
    show win0_2.index t 1 * 1 + 1 * 0 = 0
    rw [(idx_facts t).2.2.1.2]

theorem lrowBlk_apply (c : Dev nD) (t : Fin cfg0.N) (j : Fin 1024) :
    lrowBlk m c t (ix2 (0 : Fin 1) j) = lArg m c (ix2 (inBlock (tileCol (pt t)) j) (0 : Fin 1)) := by
  unfold lrowBlk iblk
  rw [View.read_apply]
  show (V m c main_v1 : S1x8192.Idx → BitVec 32) (((cfg0.win 3).blk t).view.emb (ix2 (0 : Fin 1) j)) = _
  refine Eq.trans (congrArg (V m c main_v1 : S1x8192.Idx → BitVec 32)
    (?_ : _ = ix2 (0 : Fin 1) (inBlock (tileCol (pt t)) j))) (V_lrow m c _)
  funext a; apply Fin.ext
  match a with
  | ⟨0, _⟩ =>
    show win0_3.index t 0 * 1 + 1 * 0 = 0
    rw [(idx_facts t).2.2.2.1.1]
  | ⟨1, _⟩ =>
    show win0_3.index t 1 * 1024 + 1 * j.val = 1024 * (t.val % 8) + j.val
    rw [(idx_facts t).2.2.2.1.2]; omega

/-- The one index of a 1 × 1 block. -/
abbrev o : S1x1.Idx := ix2 (0 : Fin 1) (0 : Fin 1)

/-- The body's tile term at point `t` is the sum of the contributions of tile `t`. -/
theorem point_tile (c : Dev nD) (t : Fin cfg0.N) :
    k0_pay3 (F := Ideal) (grid0.coords t) (pcolBlk m c t) (prowBlk m c t) (lcolBlk m c t) (lrowBlk m c t) o
      = tile (entry (pArg m c) (lArg m c)) (pt t) :=
  tile_sum (grid0.coords t) (pcolBlk m c t) (prowBlk m c t) (lcolBlk m c t) (lrowBlk m c t) (pArg m c) (lArg m c)
    (tileRow (pt t)) (tileCol (pt t)) (idx_facts t).2.2.2.2.1 (idx_facts t).2.2.2.2.2
    (pcolBlk_apply m c t) (prowBlk_apply m c t) (lcolBlk_apply m c t) (lrowBlk_apply m c t)

/-! ## The accumulator, point by point -/

/-- After the first point the accumulator holds zero plus the first tile's sum. -/
theorem acc_A (c : Dev nD) (t : Fin cfg0.N) (h0 : t.val % 64 = 0) (h1 : ¬t.val % 64 = 63) :
    (outsAt0 m c t.val t.isLt).2 o = 0 + tile (entry (pArg m c) (lArg m c)) (pt t) := by
  rw [outsAt0_A m c t h0 h1]
  dsimp only
  rw [scratch_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t),
    update_apply, reset_apply]
  exact congrArg (0 + ·) (point_tile m c t)

/-- After a middle point it holds what the point before left plus the point's tile sum. -/
theorem acc_B (c : Dev nD) (t : Fin cfg0.N) (h0 : ¬t.val % 64 = 0) (h1 : ¬t.val % 64 = 63) :
    (outsAt0 m c t.val t.isLt).2 o
      = (outsAt0 m c (t.val - 1) (Nat.lt_of_le_of_lt (Nat.sub_le _ _) t.isLt)).2 o + tile (entry (pArg m c) (lArg m c)) (pt t) := by
  rw [outsAt0_B m c t h0 h1]
  dsimp only
  rw [scratch_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t)
    (outsAt0 m c (t.val - 1) (Nat.lt_of_le_of_lt (Nat.sub_le _ _) t.isLt)).2, update_apply]
  exact congrArg (_ + ·) (point_tile m c t)

/-- After the last point likewise, -/
theorem acc_C (c : Dev nD) (t : Fin cfg0.N) (h0 : ¬t.val % 64 = 0) (h1 : t.val % 64 = 63) :
    (outsAt0 m c t.val t.isLt).2 o
      = (outsAt0 m c (t.val - 1) (Nat.lt_of_le_of_lt (Nat.sub_le _ _) t.isLt)).2 o + tile (entry (pArg m c) (lArg m c)) (pt t) := by
  rw [outsAt0_C m c t h0 h1]
  dsimp only
  rw [scratch_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t)
    (outsAt0 m c (t.val - 1) (Nat.lt_of_le_of_lt (Nat.sub_le _ _) t.isLt)).2, update_apply]
  exact congrArg (_ + ·) (point_tile m c t)

/-- and the output block then holds the accumulator. -/
theorem out_eq_acc (c : Dev nD) (t : Fin cfg0.N) (h0 : ¬t.val % 64 = 0) (h1 : t.val % 64 = 63) :
    (outsAt0 m c t.val t.isLt).1 = (outsAt0 m c t.val t.isLt).2 := by
  rw [outsAt0_C m c t h0 h1]
  dsimp only
  rw [scratch_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t)
    (outsAt0 m c (t.val - 1) (Nat.lt_of_le_of_lt (Nat.sub_le _ _) t.isLt)).2,
    out_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t)
    (outsAt0 m c (t.val - 1) (Nat.lt_of_le_of_lt (Nat.sub_le _ _) t.isLt)).2]

/-- Tile `k`'s sum, zero past the grid. -/
def tileAt (c : Dev nD) (k : ℕ) : EReal := if h : k < 64 then tile (entry (pArg m c) (lArg m c)) ⟨k, h⟩ else 0

theorem tileAt_pt (c : Dev nD) (t : Fin cfg0.N) : tileAt m c t.val = tile (entry (pArg m c) (lArg m c)) (pt t) :=
  dif_pos (pt t).isLt

/-- THE RUNNING SUM: after point `n` the accumulator holds the sum of the tiles `0 … n`. -/
theorem acc_eq (c : Dev nD) : ∀ (n : ℕ) (hn : n < cfg0.N),
    (outsAt0 m c n hn).2 o = ∑ k ∈ Finset.range (n + 1), tileAt m c k
  | 0, hn => by
    rw [acc_A m c ⟨0, hn⟩ rfl (by dsimp only; omega), zero_add, Finset.sum_range_one]
    exact (tileAt_pt m c ⟨0, hn⟩).symm
  | n + 1, hn => by
    have hN : n + 1 < 64 := lt_of_lt_of_eq hn (show cfg0.N = 64 from N_0)
    have h0 : ¬(⟨n + 1, hn⟩ : Fin cfg0.N).val % 64 = 0 := by dsimp only; omega
    have step : (outsAt0 m c (n + 1) hn).2 o
        = (outsAt0 m c n (Nat.lt_of_succ_lt hn)).2 o + tile (entry (pArg m c) (lArg m c)) (pt ⟨n + 1, hn⟩) := by
      by_cases h1 : (⟨n + 1, hn⟩ : Fin cfg0.N).val % 64 = 63
      · exact acc_C m c ⟨n + 1, hn⟩ h0 h1
      · exact acc_B m c ⟨n + 1, hn⟩ h0 h1
    rw [step, acc_eq c n (Nat.lt_of_succ_lt hn), Finset.sum_range_succ _ (n + 1)]
    exact congrArg (_ + ·) (tileAt_pt m c ⟨n + 1, hn⟩).symm

/-! ## The output array after the region -/

/-- All 64 tiles together are the loss. -/
theorem sum_tileAt (c : Dev nD) : ∑ k ∈ Finset.range 64, tileAt m c k = total (pArg m c) (lArg m c) := by
  rw [total_eq_tiles, Finset.sum_range]
  exact Finset.sum_congr rfl fun k _ => dif_pos k.isLt

theorem idx_one (y : S1x1.Idx) : y = o :=
  funext fun a => Fin.ext (by
    match a with
    | ⟨0, _⟩ => exact Nat.lt_one_iff.mp (y 0).isLt
    | ⟨1, _⟩ => exact Nat.lt_one_iff.mp (y 1).isLt)

/-- At the last point the output block holds the loss. -/
theorem out_last (c : Dev nD) (t : Fin cfg0.N) (h : t.val % 64 = 63) (y : S1x1.Idx) :
    (outsAt0 m c t.val t.isLt).1 y = total (pArg m c) (lArg m c) := by
  have hN : t.val < 64 := lt_of_lt_of_eq t.isLt (show cfg0.N = 64 from N_0)
  have ht : t.val + 1 = 64 := by omega
  rw [idx_one y, out_eq_acc m c t (by omega) h, acc_eq m c t.val t.isLt, ht]
  exact sum_tileAt m c

/-- The loss as contents of the 1 × 1 result array of the region. -/
abbrev lossArr (c : Dev nD) : S1x1.Idx → EReal := fun _ => total (pArg m c) (lArg m c)

/-- The one write-back, at the last point, writes the loss. -/
theorem flushed_eq (c : Dev nD) (t : Fin cfg0.N) (hf : (cfg0.win 4).flush t = true) :
    (dats m 0 c).flushed 4 t = ((cfg0.win 4).blk t).view.read (Elt Ideal) (lossArr m c) := by
  have h63 : t.val % 64 = 63 := (flush0_4 t).mp hf
  show (cfg0.win 4).cut (grid0.coords t) ((dats m 0 c).after 4 t) = _
  rw [after0_4]
  funext y
  rw [View.read_apply]
  show (outsAt0 m c t.val t.isLt).1 ((cfg0.win 4).xinj (grid0.coords t) y) = total (pArg m c) (lArg m c)
  exact out_last m c t h63 _

/-- The last grid point. -/
def tLast : Fin cfg0.N := ⟨63, by rw [show cfg0.N = 64 from N_0]; decide⟩

/-- So the region's result array ends holding the loss: the last point's block is the whole 1 × 1 array. -/
theorem final_out (c : Dev nD) : (dats m 0 c).arrAt 4 cfg0.N = lossArr m c :=
  (dats m 0 c).arrAt_eq_of_cover 4 (lossArr m c) (flushed_eq m c) fun i =>
    ⟨tLast, (flush0_4 tLast).mpr rfl, by
      show i ∈ ((View.whole main_v2).slice (win0_4.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_4.index tLast 0 * win0_4.size 0 ≤ (i 0 : Nat)
          ∧ (i 0 : Nat) < win0_4.index tLast 0 * win0_4.size 0 + win0_4.xsize (grid0.coords tLast) 0
        rw [show win0_4.index tLast 0 * win0_4.size 0 = 0 from by decide +kernel,
          show win0_4.xsize (grid0.coords tLast) 0 = 1 from by decide +kernel]; omega
      | ⟨1, _⟩ =>
        show win0_4.index tLast 1 * win0_4.size 1 ≤ (i 1 : Nat)
          ∧ (i 1 : Nat) < win0_4.index tLast 1 * win0_4.size 1 + win0_4.xsize (grid0.coords tLast) 1
        rw [show win0_4.index tLast 1 * win0_4.size 1 = 0 from by decide +kernel,
          show win0_4.xsize (grid0.coords tLast) 1 = 1 from by decide +kernel]; omega⟩

/-! ## The run -/

/-- The program's result buffer bypasses the region: it is unscoped and is no window's array. -/
theorem v3_rest : main_v3 ∈ Pipeline.restRefs sig (cfgs 0).spec :=
  Pipeline.mem_restRefs_of main_v3 rfl (fun w => by fin_cases w <;> exact (by decide))

/-- After the region the host reshapes the 1 × 1 result array to a scalar: the loss. -/
theorem tail_eq (c : Dev nD) :
    (Pipeline.afterTail₀ cfgs (dats m) 0 (V0 m) [hostOps1] c main_v3 : S_.Idx → EReal)
      = fun _ => total (pArg m c) (lArg m c) := by
  unfold Pipeline.afterTail₀
  show StableHlo.after hostOps1 _ (Proc.devRef .tc main_v3) = _
  after_results
  funext i
  have e : Pipeline.withArrays (cfgs 0).spec c (V0 m c) (fun w => (dats m 0 c).arrAt w (cfgs 0).N)
      (Proc.tc.devRef main_v2) = lossArr m c :=
    (Pipeline.withArrays_arr (cfgs 0).spec launch0.win.arr_inj c (V0 m c) _ 4).trans (final_out m c)
  show shapeCast S_ (Pipeline.withArrays (cfgs 0).spec c (V0 m c) (fun w => (dats m 0 c).arrAt w (cfgs 0).N)
      (Proc.tc.devRef main_v2)) shapeCasts_S1x1_S_ i = _
  rw [e]
  rfl

/-- THE KERNEL'S RUN: every weakly fair execution ends with the result at the loss of the two argument columns, and
    the arguments unchanged. -/
theorem run : θ_run defs (onTc (τ := τ) (main (F := Ideal))) ⟨m, fun _ => 0, ρ⟩ fun r => ∀ c : Dev nD,
      r.2.mem ((c.tc : Thread nD τ).loc main_v3) = (fun _ => total (pArg m c) (lArg m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v3 v3_rest).trans (tail_eq m c),
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c)))⟩)
    (run_main m ρ)

end Cert.KernelIdeal.LossValue

end
-- ==== Proof.lean ====
/-
  A pairwise contrastive loss: the tiled kernel against the whole-array reference, over the extended reals.

  Both programs take a column `p` of 8192 reals and a column `l` of 8192 labels and return

      ∑ over pairs (i, j) with i ≠ j of  s(i, j) · (p i - p j)²,      s(i, j) = 1 if l i = l j, else -1.

  The reference materialises the 8192 × 8192 array of contributions (zero on the diagonal) and sums it over both axes
  at once.  The kernel walks an 8 × 8 grid of 1024 × 1024 tiles: at each tile it forms the tile's contributions from a
  1024 × 1 block and a 1 × 1024 block of each column, sums the rows and then the column of row sums, and adds the result
  to a 1 × 1 accumulator that it resets at the first tile and copies out at the last.  Entry by entry the two arrays
  agree — the kernel's diagonal test `a·1024 + r = b·1024 + c` is the reference's `i = j` at `i = 1024·a + r`,
  `j = 1024·b + c` — and the two results differ only in how one finite sum is grouped.  Addition of extended reals is
  commutative and associative, so the grouping does not matter; no finiteness of the inputs is needed for it.

  The three frames: the kernel's two are the generated frame runs; the reference is a host program, whose generated
  run has its arguments unchanged.  The idealization rewrote nothing, so its conjunct is `True`.
-/
import proofs.«124496_j78451872629246_1_alg».proof.Defs
import proofs.«124496_j78451872629246_1_alg».proof.Proof.Gen.Kernel
import proofs.«124496_j78451872629246_1_alg».proof.Proof.Gen.Kernel.Skeleton
import proofs.«124496_j78451872629246_1_alg».proof.Proof.Gen.Kernel.Launch
import proofs.«124496_j78451872629246_1_alg».proof.Proof.Gen.Kernel.Points
import proofs.«124496_j78451872629246_1_alg».proof.Proof.Gen.Kernel.Frame
import proofs.«124496_j78451872629246_1_alg».proof.Proof.Gen.KernelIdeal
import proofs.«124496_j78451872629246_1_alg».proof.Proof.Gen.KernelIdeal.Skeleton
import proofs.«124496_j78451872629246_1_alg».proof.Proof.Gen.KernelIdeal.Launch
import proofs.«124496_j78451872629246_1_alg».proof.Proof.Gen.KernelIdeal.Points
import proofs.«124496_j78451872629246_1_alg».proof.Proof.Gen.KernelIdeal.Frame
import proofs.«124496_j78451872629246_1_alg».proof.Proof.Gen.ReferenceIdeal
import proofs.«124496_j78451872629246_1_alg».proof.Proof.Gen.ReferenceIdeal.Run
import proofs.«124496_j78451872629246_1_alg».proof.Proof.Gen.ReferenceIdeal.Read
import proofs.«124496_j78451872629246_1_alg».proof.Proof.Gen.Pre_finite_inputs
import proofs.«124496_j78451872629246_1_alg».proof.Proof.RefSide
import proofs.«124496_j78451872629246_1_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run leaves its arguments unchanged. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the loss of the (agreeing) argument columns. -/
theorem algebraic : Cert.algebraic_KernelIdeal_ReferenceIdeal := by
  intro m ρ m' ρ' _ hagree
  refine ⟨fun c => fun _ => Cert.PairSum.total (Cert.KernelIdeal.LossValue.pArg m c) (Cert.KernelIdeal.LossValue.lArg m c),
    Cert.KernelIdeal.LossValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.ReferenceIdeal.RefValue.result_eq, (hagree c).1, (hagree c).2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
